-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048 .f32) (main_arg3 : FVec F S2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_cst_3 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S2048_S1x2048 : S2048.ShapeCasts S1x2048
  shapeCasts_S4x2048x2048_S8192x2048 : S4x2048x2048.ShapeCasts S8192x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S8192x2048_S4x2048x2048 : S8192x2048.ShapeCasts S4x2048x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v13) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S1x1x2048, .f32⟩
  | .hbm, ⟨29, _⟩ => ⟨S4x2048x2048, .f32⟩
  | .hbm, ⟨30, _⟩ => ⟨S4x2048x2048, .f32⟩
  | .hbm, ⟨31, _⟩ => ⟨S1x1x2048, .f32⟩
  | .hbm, ⟨32, _⟩ => ⟨S4x2048x2048, .f32⟩
  | .hbm, ⟨33, _⟩ => ⟨S4x2048x2048, .f32⟩
  | .hbm, ⟨34, _⟩ => ⟨S2048x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S4x2048x2048, .f32⟩
  | .hbm, ⟨53, _⟩ => ⟨S1x1x2048, .f32⟩
  | .hbm, ⟨54, _⟩ => ⟨S4x2048x2048, .f32⟩
  | .hbm, ⟨55, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  reducesTo_S2048x2048_S_d0_1 : S2048x2048.ReducesTo [0, 1] S_
  bcast_S_S2048x2048 : S_.BroadcastsInDim S2048x2048 (![] : Fin 0 → Fin S2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.LibRowNorm.lean ====
/-
  Row sums of a matrix, laid out as a column or as a row and spread over a larger matrix, read at an index.

  For a matrix `x` with `a` rows of length `d`, the lane sum over axis 1 gives one number per row. Kept as a
  column `[a, 1]` and broadcast to `[a, b]` it puts row `p`'s sum at every `(p, q)`; transposed to a row `[1, a]`
  and broadcast to `[c, a]` it puts row `q`'s sum at every `(p, q)`. These are the two halves of the outer sum
  `u_p + v_q` that a pairwise-distance kernel forms from squared norms.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowNorm

open Idealize.ShloMosaic Idealize.ShloMosaic.ValueIdx

variable {φ : FTy}

/-- The lane sum over axis 1 of an `[a, d]` matrix, at row `p`: the sum of that row's `d` entries. -/
theorem rowSum_apply {a d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (p : Fin a) :
    multiReduction .add [1] ⟨1, ![a]⟩ x acc h hφ hacc (ix1 p) = ∑ k : Fin d, x (ix2 p k) := by
  rw [Ideal.multiReduction_add_single]
  refine Finset.sum_congr rfl fun k _ => congrArg x ?_
  funext c
  match c with
  | ⟨0, _⟩ => rfl
  | ⟨1, _⟩ => rfl

/-- A vector of length `a` cast to a column `[a, 1]`, at `(p, 0)`: its entry `p`. -/
theorem column_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  have hz : z.val = 0 := by omega
  show p.val = p.val * 1 + z.val
  omega

/-- A column `[a, 1]` broadcast to `[a, b]`, at `(p, q)`: the column's entry `p`. -/
theorem spreadColumn_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Row sums kept as a column and spread over `[a, b]`: at `(p, q)` the sum of row `p`. -/
theorem rowSum_column_apply {a b d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ x acc h hφ hacc) hc) hb (ix2 p q)
      = ∑ k : Fin d, x (ix2 p k) := by
  rw [spreadColumn_apply, column_apply, rowSum_apply]

/-- Row sums turned into a row and spread over `[c, a]`: at `(p, q)` the sum of row `q`. -/
theorem rowSum_row_apply {a c d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![c, a]⟩) (p : Fin c) (q : Fin a) :
    broadcastTo ⟨2, ![c, a]⟩ (transpose ⟨2, ![1, a]⟩ [1, 0]
        (shapeCast ⟨2, ![a, 1]⟩ (multiReduction .add [1] ⟨1, ![a]⟩ x acc h hφ hacc) hc) ht) hb (ix2 p q)
      = ∑ k : Fin d, x (ix2 q k) := by
  rw [broadcastTo_1b_ab_apply, transpose_ix2_apply, column_apply, rowSum_apply]

end Cert.RowNorm

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.LnSpec.lean ====
/-
  Layer normalisation of a row of 2048 numbers, followed by the product with a row of weights and a bias, over
  the extended reals.

  For a row `x`, a scale row `γ`, a shift row `β`, a weight row `w` and a bias `b`:
    mean      μ      = (Σₖ xₖ) / 2048
    centred   cₖ     = xₖ - μ
    variance  σ²     = (Σₖ cₖ · cₖ) / 2048
    normed    nₖ     = cₖ · (σ² + ε)^(-1/2) · γₖ + βₖ
    output           = (Σₖ nₖ · wₖ) + b
  with 2048 and ε the two float words both programs spell (ε is the float nearest 10⁻⁵).  Every operation is the
  extended reals' own, in this order, so nothing here needs a finite input.  The whole result is the array whose
  entry (i, j, o) is the output of row (i, j) of the data against row `o` of the weights.
-/
import Idealize.ShloMosaic.PureOps.Ideal
import Idealize.ShloMosaic.Lib.ValueIdx

noncomputable section

namespace Cert.LnLinear

open Idealize.ShloMosaic Idealize.ShloMosaic.ValueIdx

/-- The row length 2048, as the float word both programs divide by. -/
abbrev width : EReal := Ideal.ofBits .f32 0x45000000#32
/-- The number added to the variance before the inverse square root. -/
abbrev eps : EReal := Ideal.ofBits .f32 0x3727C5AC#32

/-- The mean of a row. -/
def mean (x : Fin 2048 → EReal) : EReal := Ideal.div (∑ k, x k) width
/-- A row's entry less the row's mean. -/
def centred (x : Fin 2048 → EReal) (k : Fin 2048) : EReal := x k - mean x
/-- The mean of the squares of the centred row. -/
def variance (x : Fin 2048 → EReal) : EReal := Ideal.div (∑ k, centred x k * centred x k) width
/-- The normalised row, scaled by `γ` and shifted by `β`. -/
def normed (x γ β : Fin 2048 → EReal) (k : Fin 2048) : EReal :=
  centred x k * Ideal.rsqrt (variance x + eps) * γ k + β k
/-- The normalised row against a weight row, plus a bias. -/
def outEntry (x γ β w : Fin 2048 → EReal) (b : EReal) : EReal := (∑ k, normed x γ β k * w k) + b

/-- The result array: entry (i, j, o) from row (i, j) of the data `a`, the scale `γ`, the shift `β`, row `o` of the
    weights `wq` and entry `o` of the bias. -/
def result (a : (⟨3, ![4, 2048, 2048]⟩ : Shape).Idx → EReal) (wq : (⟨2, ![2048, 2048]⟩ : Shape).Idx → EReal)
    (bias γ β : (⟨1, ![2048]⟩ : Shape).Idx → EReal) : (⟨3, ![4, 2048, 2048]⟩ : Shape).Idx → EReal := fun i =>
  outEntry (fun k => a (ix3 (i 0) (i 1) k)) (fun k => γ (ix1 k)) (fun k => β (ix1 k)) (fun k => wq (ix2 (i 2) k)) (bias (ix1 (i 2)))

end Cert.LnLinear

end
-- ==== Proof.BodyValue.lean ====
/-
  What the kernel body computes for one block of 256 rows, read at an entry.

  The body takes a block `x` of 256 rows of length 2048, the scale and shift rows, the 2048 × 2048 weight
  matrix (stored with the contraction axis first) and the bias row.  It takes each row's mean off the row,
  divides the mean of the squares of what is left, plus ε, into an inverse square root, scales and shifts, and
  multiplies the block by the weight matrix into a zero accumulator, adding the bias row to every row.  At
  entry (p, q) that is the layer-normalised row `p` against column `q` of the weights, plus bias `q`:
  `outEntry` of row `p`.  The changes of float format on the way are the identity over the extended reals.
-/
import proofs.«149425_j44135083934122_1_alg».proof.Proof.Gen.KernelIdeal.Skeleton
import proofs.«149425_j44135083934122_1_alg».proof.Proof.LibRowNorm
import proofs.«149425_j44135083934122_1_alg».proof.Proof.LibMatmul
import proofs.«149425_j44135083934122_1_alg».proof.Proof.LnSpec
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx Cert.LnLinear

/-- The inverse square root of a vector, entry by entry. -/
theorem rsqrt_apply {s : Shape} {φ : FTy} (a : FVec Ideal s φ) (i : s.Idx) : rsqrt a i = Ideal.rsqrt (a i) := rfl

/-- Row sums of a block divided by a number `c`, kept as a column and spread along the rows: at (p, k) the sum of row `p`
    over `c`. -/
theorem rowSum_div_spread (y : FVec Ideal S256x2048 .f32) (c : Ideal .f32) (p : Fin 256) (k : Fin 2048) :
    broadcastTo S256x2048 (divf (shapeCast S256x1 (multiReduction .add [1] S256 y 0x00000000#32 reduces_S256x2048_S256 (.inl rfl) rfl) shapeCasts_S256_S256x1)
      (broadcast S256x1 c)) broadcasts_S256x1_S256x2048 (ix2 p k) = Ideal.div (∑ j : Fin 2048, y (ix2 p j)) c :=
  (Cert.RowNorm.spreadColumn_apply _ _ p k).trans
    (congrArg (Ideal.div · c) ((Cert.RowNorm.column_apply _ _ p (0 : Fin 1)).trans (Cert.RowNorm.rowSum_apply y _ _ _ _ p)))

/-- The block with each row's mean taken off the row. -/
def centredBlock (x : FVec Ideal S256x2048 .f32) : FVec Ideal S256x2048 .f32 :=
  subf x (broadcastTo S256x2048 (divf (shapeCast S256x1 (multiReduction .add [1] S256 x 0x00000000#32 reduces_S256x2048_S256 (.inl rfl) rfl) shapeCasts_S256_S256x1)
    (broadcast S256x1 (Scalar.ofBits .f32 0x45000000#32))) broadcasts_S256x1_S256x2048)

/-- Entry (p, k) of the centred block is entry `k` of row `p` less that row's mean. -/
theorem centredBlock_apply (x : FVec Ideal S256x2048 .f32) (p : Fin 256) (k : Fin 2048) :
    centredBlock x (ix2 p k) = centred (fun j => x (ix2 p j)) k := by
  unfold centredBlock centred mean
  rw [subf_apply, rowSum_div_spread]
  rfl

/-- Each row's inverse standard deviation, spread along the row. -/
def invStdBlock (x : FVec Ideal S256x2048 .f32) : FVec Ideal S256x2048 .f32 :=
  broadcastTo S256x2048 (rsqrt (addf (divf (shapeCast S256x1 (multiReduction .add [1] S256 (mulf (centredBlock x) (centredBlock x)) 0x00000000#32 reduces_S256x2048_S256 (.inl rfl) rfl) shapeCasts_S256_S256x1)
    (broadcast S256x1 (Scalar.ofBits .f32 0x45000000#32))) (broadcast S256x1 (Scalar.ofBits .f32 0x3727C5AC#32)))) broadcasts_S256x1_S256x2048

/-- Entry (p, k) of it is the inverse square root of row `p`'s variance plus ε. -/
theorem invStdBlock_apply (x : FVec Ideal S256x2048 .f32) (p : Fin 256) (k : Fin 2048) :
    invStdBlock x (ix2 p k) = Ideal.rsqrt (variance (fun j => x (ix2 p j)) + eps) := by
  unfold invStdBlock variance
  refine (Cert.RowNorm.spreadColumn_apply _ _ p k).trans ?_
  refine congrArg (fun v => Ideal.rsqrt (Ideal.div v width + eps))
    ((Cert.RowNorm.column_apply _ _ p (0 : Fin 1)).trans ((Cert.RowNorm.rowSum_apply _ _ _ _ _ p).trans ?_))
  refine Finset.sum_congr rfl fun j _ => ?_
  rw [mulf_apply, centredBlock_apply]

/-- The normalised block, scaled by the row `g` and shifted by the row `b`. -/
def normedBlock (x : FVec Ideal S256x2048 .f32) (g b : FVec Ideal S1x2048 .f32) : FVec Ideal S256x2048 .f32 :=
  addf (mulf (mulf (centredBlock x) (invStdBlock x)) (broadcastTo S256x2048 g broadcasts_S1x2048_S256x2048)) (broadcastTo S256x2048 b broadcasts_S1x2048_S256x2048)

/-- Entry (p, k) of it is entry `k` of the normalised row `p`. -/
theorem normedBlock_apply (x : FVec Ideal S256x2048 .f32) (g b : FVec Ideal S1x2048 .f32) (p : Fin 256) (k : Fin 2048) :
    normedBlock x g b (ix2 p k) = normed (fun j => x (ix2 p j)) (fun j => g (ix2 (0 : Fin 1) j)) (fun j => b (ix2 (0 : Fin 1) j)) k := by
  unfold normedBlock normed
  rw [addf_apply, mulf_apply, mulf_apply, centredBlock_apply, invStdBlock_apply, broadcastTo_1b_ab_apply, broadcastTo_1b_ab_apply]

/-- The body's stored value is the product of the normalised block with the weights, plus the bias row. -/
theorem pay_eq (x0 : FVec Ideal S256x2048 .f32) (x1 x2 : FVec Ideal S1x2048 .f32) (x3 : FVec Ideal S2048x2048 .bf16) (x4 : FVec Ideal S1x2048 .f32) :
    k0_pay1 (F := Ideal) x0 x1 x2 x3 x4
      = addf (matmul dot_S256x2048_S2048x2048_S256x2048_1_0_0_1_n_n none (truncf .bf16 (normedBlock x0 x1 x2) bitsLt_bf16_f32) x3 (constant S256x2048 .f32 0x00000000#32))
          (broadcastTo S256x2048 x4 broadcasts_S1x2048_S256x2048) := by
  unfold k0_pay1 normedBlock invStdBlock centredBlock
  simp only [shapeCast_self]

/-- The kernel's dimension numbers are the plain matrix product's. -/
theorem dims_plain : dot_S256x2048_S2048x2048_S256x2048_1_0_0_1_n_n = DotDims.plain 256 2048 2048 := rfl

/-- Entry (p, q) of the body's stored value: the normalised row `p` against column `q` of the weights, plus bias `q`. -/
theorem pay_apply (x0 : FVec Ideal S256x2048 .f32) (x1 x2 : FVec Ideal S1x2048 .f32) (x3 : FVec Ideal S2048x2048 .bf16) (x4 : FVec Ideal S1x2048 .f32)
    (p : Fin 256) (q : Fin 2048) :
    k0_pay1 (F := Ideal) x0 x1 x2 x3 x4 (ix2 p q)
      = outEntry (fun k => x0 (ix2 p k)) (fun k => x1 (ix2 (0 : Fin 1) k)) (fun k => x2 (ix2 (0 : Fin 1) k)) (fun k => x3 (ix2 k q)) (x4 (ix2 (0 : Fin 1) q)) := by
  rw [pay_eq, addf_apply, broadcastTo_1b_ab_apply, dims_plain]
  unfold outEntry
  refine congrArg (· + x4 (ix2 (0 : Fin 1) q)) ?_
  refine (LibMatmul.matmul_zero_plain_apply none _ x3 p q).trans ?_
  refine Finset.sum_congr rfl fun k _ => ?_
  rw [truncf_apply, normedBlock_apply]

/-- The same at any index `y` of the block: row `y 0` against column `y 1`. -/
theorem pay_rows (x0 : FVec Ideal S256x2048 .f32) (x1 x2 : FVec Ideal S1x2048 .f32) (x3 : FVec Ideal S2048x2048 .bf16) (x4 : FVec Ideal S1x2048 .f32)
    (y : S256x2048.Idx) :
    k0_pay1 (F := Ideal) x0 x1 x2 x3 x4 y
      = outEntry (fun k => x0 (ix2 (y 0) k)) (fun k => x1 (ix2 (0 : Fin 1) k)) (fun k => x2 (ix2 (0 : Fin 1) k)) (fun k => x3 (ix2 k (y 1))) (x4 (ix2 (0 : Fin 1) (y 1))) := by
  obtain ⟨p, q, rfl⟩ : ∃ (p : Fin 256) (q : Fin 2048), y = ix2 p q := ⟨y 0, y 1, eq_ix2 y⟩
  exact pay_apply x0 x1 x2 x3 x4 p q

end Cert.KernelIdeal.BodyValue

end
-- ==== Proof.Entry.lean ====
/-
  What the kernel region finds in its operands' arrays.

  Before the region the program reshapes the data [4, 2048, 2048] to 8192 rows of length 2048, reshapes the scale,
  the shift and the bias to single rows, and quantises the weights: each weight divided by the mean absolute
  weight plus ε, rounded to the nearest integer (ties to even) and clamped to [-1, 1]; the quantised matrix is
  transposed, so that the contraction axis comes first, and its float format narrowed, which over the extended
  reals changes nothing.  Read at an entry: row r = 2048 i + j of the data array is row (i, j) of the data, the single rows are
  the vectors, and entry (k, o) of the weight operand is entry (o, k) of the quantised weights.
-/
import proofs.«149425_j44135083934122_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The ternary quantisation of a weight matrix: each entry over the mean absolute entry plus ε, rounded, clamped to [-1, 1]. -/
def quantised (w : FVec Ideal S2048x2048 .f32) : FVec Ideal S2048x2048 .f32 :=
  minimumf (broadcastInDim S2048x2048 ![] bcast_S_S2048x2048 (id (constant S_ .f32 0x3F800000#32)))
    (maximumf (broadcastInDim S2048x2048 ![] bcast_S_S2048x2048 (id (constant S_ .f32 0xBF800000#32)))
      (Host.roundeven (Host.divf w (broadcastInDim S2048x2048 ![] bcast_S_S2048x2048
        (addf (Host.divf (Host.reduceAdd (Host.absf w) (constant S_ .f32 0x00000000#32) reducesTo_S2048x2048_S_d0_1 h_S_) (constant S_ .f32 0x4A800000#32))
          (constant S_ .f32 0x3727C5AC#32))))))

/-- The data operand: the data reshaped to 8192 rows. -/
theorem entry_x (c : Dev nD) :
    (V m c main_v13 : S8192x2048.Idx → EReal) = shapeCast S8192x2048 (m ((c : Thread nD τ).loc main_arg0)) shapeCasts_S4x2048x2048_S8192x2048 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The scale operand: the scale vector as one row. -/
theorem entry_scale (c : Dev nD) :
    (V m c main_v10 : S1x2048.Idx → EReal) = shapeCast S1x2048 (m ((c : Thread nD τ).loc main_arg3)) shapeCasts_S2048_S1x2048 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The shift operand: the shift vector as one row. -/
theorem entry_shift (c : Dev nD) :
    (V m c main_v11 : S1x2048.Idx → EReal) = shapeCast S1x2048 (m ((c : Thread nD τ).loc main_arg4)) shapeCasts_S2048_S1x2048 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The bias operand: the bias vector as one row. -/
theorem entry_bias (c : Dev nD) :
    (V m c main_v12 : S1x2048.Idx → EReal) = shapeCast S1x2048 (m ((c : Thread nD τ).loc main_arg2)) shapeCasts_S2048_S1x2048 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The weight operand: the quantised weights, transposed. -/
theorem entry_w (c : Dev nD) :
    (V m c main_v9 : S2048x2048.Idx → EReal)
      = truncf .bf16 (transpose S2048x2048 [1, 0] (quantised (m ((c : Thread nD τ).loc main_arg1))) transposes_S2048x2048_S2048x2048_1_0) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Row `r = 2048 i + j` of the data operand is row (i, j) of the data. -/
theorem x_read (c : Dev nD) (r : Fin 8192) (k : Fin 2048) (i : Fin 4) (j : Fin 2048) (h : r.val = i.val * 2048 + j.val) :
    (V m c main_v13 : S8192x2048.Idx → EReal) (ix2 r k) = (m ((c : Thread nD τ).loc main_arg0) : S4x2048x2048.Idx → EReal) (ix3 i j k) := by
  rw [entry_x]
  refine shapeCast_apply _ _ (ix2 r k) (ix3 i j k) ?_
  rw [Shape.rowMajor_val_three, Shape.rowMajor_val_two]
  show (i.val * 2048 + j.val) * 2048 + k.val = r.val * 2048 + k.val
  rw [h]

/-- A vector laid out as one row, read at (0, k). -/
theorem row_read (v : S2048.Idx → EReal) (k : Fin 2048) :
    shapeCast S1x2048 v shapeCasts_S2048_S1x2048 (ix2 (0 : Fin 1) k) = v (ix1 k) := by
  refine shapeCast_apply _ _ (ix2 (0 : Fin 1) k) (ix1 k) ?_
  rw [Shape.rowMajor_val_one, Shape.rowMajor_val_two]
  show k.val = 0 * 2048 + k.val
  omega

/-- Entry (k, o) of the weight operand is entry (o, k) of the quantised weights. -/
theorem w_read (c : Dev nD) (k o : Fin 2048) :
    (V m c main_v9 : S2048x2048.Idx → EReal) (ix2 k o) = quantised (m ((c : Thread nD τ).loc main_arg1)) (ix2 o k) := by
  rw [entry_w, truncf_apply, transpose_ix2_apply]

end Cert.KernelIdeal.Entry

end
-- ==== Proof.KernelValue.lean ====
/-
  The kernel's result array, as one function of what the region finds in its operands.

  Grid point `t` (of 32) takes rows 256 t … 256 t + 255 of the data operand and the whole of the scale, shift,
  weight and bias operands, and writes rows 256 t … 256 t + 255 of the output.  Entry (p, q) of what it writes is
  `outEntry` of row 256 t + p of the data against column `q` of the weight operand; so the point's block is the
  block of ONE array, `outArr`, whose entry (r, q) is `outEntry` of data row `r` against weight column `q`.  The 32
  row blocks cover all 8192 rows, so after the region the output array is `outArr`; the last host line reshapes it
  to [4, 2048, 2048], row r = 2048 i + j becoming (i, j).
-/
import proofs.«149425_j44135083934122_1_alg».proof.Proof.Gen.KernelIdeal.Frame
import proofs.«149425_j44135083934122_1_alg».proof.Proof.BodyValue
import proofs.«149425_j44135083934122_1_alg».proof.Proof.Entry
import Idealize.ShloMosaic.Lib.Pipeline.Value
import Idealize.ShloMosaic.Lib.StableHlo.Run
import Idealize.ShloMosaic.Lib.Tactic

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.LnLinear Cert.KernelIdeal.BodyValue

variable (m : (ℓ : Loc nD τ sig) → Buf (Elt Ideal) ℓ) (ρ : Dev nD → PrngReg)

/-- The operands as the region finds them, each at its literal type. -/
abbrev xArr (c : Dev nD) : S8192x2048.Idx → EReal := V m c main_v13
abbrev scaleArr (c : Dev nD) : S1x2048.Idx → EReal := V m c main_v10
abbrev shiftArr (c : Dev nD) : S1x2048.Idx → EReal := V m c main_v11
abbrev wArr (c : Dev nD) : S2048x2048.Idx → EReal := V m c main_v9
abbrev biasArr (c : Dev nD) : S1x2048.Idx → EReal := V m c main_v12

/-- The output array: entry (r, q) is the normalised data row `r` against weight column `q`, plus bias `q`. -/
def outArr (c : Dev nD) : S8192x2048.Idx → EReal := fun i =>
  outEntry (fun k => xArr m c (ix2 (i 0) k)) (fun k => scaleArr m c (ix2 (0 : Fin 1) k)) (fun k => shiftArr m c (ix2 (0 : Fin 1) k))
    (fun k => wArr m c (ix2 k (i 1))) (biasArr m c (ix2 (0 : Fin 1) (i 1)))

theorem hz : (![0, 0] : Fin 2 → Nat) = fun _ => 0 := funext fun a => by fin_cases a <;> rfl

/-- Where each window's block sits at point `t`: the data and output windows at row block `t`, the others at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The data window's block at point `t`, read at `y`: the data operand at row 256 t + y₀. -/
theorem xblk_read (c : Dev nD) (t : Fin cfg0.N) (y : S256x2048.Idx) (i : S8192x2048.Idx)
    (h0 : (i 0).val = t.val * 256 + (y 0).val) (h1 : (i 1).val = (y 1).val) :
    (iblk m c 0 t : Vec Ideal S256x2048 .f32) y = xArr m c i := by
  obtain ⟨e0, e1, -⟩ := idx_facts t
  unfold iblk
  rw [View.read_apply]
  show V m c main_v13 _ = V m c main_v13 _
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 2048 + 1 * (y 1).val = (i 1).val; rw [e1, h1]; omega

/-- The scale window's block is the whole scale operand. -/
theorem scaleblk_read (c : Dev nD) (t : Fin cfg0.N) (y : S1x2048.Idx) :
    (iblk m c 1 t : Vec Ideal S1x2048 .f32) y = scaleArr m c y := by
  obtain ⟨-, -, e0, e1, -⟩ := idx_facts t
  unfold iblk
  rw [View.read_apply]
  show V m c main_v10 _ = V m c main_v10 _
  congr 1
  funext a
  apply Fin.ext
  match a with
  | ⟨0, _⟩ => show win0_1.index t (0 : Fin 2) * 1 + 1 * (y 0).val = (y 0).val; rw [e0]; omega
  | ⟨1, _⟩ => show win0_1.index t (1 : Fin 2) * 2048 + 1 * (y 1).val = (y 1).val; rw [e1]; omega

/-- The shift window's block is the whole shift operand. -/
theorem shiftblk_read (c : Dev nD) (t : Fin cfg0.N) (y : S1x2048.Idx) :
    (iblk m c 2 t : Vec Ideal S1x2048 .f32) y = shiftArr m c y := by
  obtain ⟨-, -, -, -, e0, e1, -⟩ := idx_facts t
  unfold iblk
  rw [View.read_apply]
  show V m c main_v11 _ = V m c main_v11 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

/-- The weight window's block is the whole weight operand. -/
theorem wblk_read (c : Dev nD) (t : Fin cfg0.N) (y : S2048x2048.Idx) :
    (iblk m c 3 t : Vec Ideal S2048x2048 .bf16) y = wArr m c y := by
  obtain ⟨-, -, -, -, -, -, e0, e1, -⟩ := idx_facts t
  unfold iblk
  rw [View.read_apply]
  show V m c main_v9 _ = V m c main_v9 _
  congr 1
  funext a
  apply Fin.ext
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

/-- The bias window's block is the whole bias operand. -/
theorem biasblk_read (c : Dev nD) (t : Fin cfg0.N) (y : S1x2048.Idx) :
    (iblk m c 4 t : Vec Ideal S1x2048 .f32) y = biasArr m c y := by
  obtain ⟨-, -, -, -, -, -, -, -, e0, e1, -⟩ := idx_facts t
  unfold iblk
  rw [View.read_apply]
  show V m c main_v12 _ = V m c main_v12 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 2048 + 1 * (y 1).val = (y 1).val; rw [e1]; omega

/-- What the body leaves at point `t`, read at `y`, is `outArr` at any index `i` with row 256 t + y₀ and column y₁. -/
theorem body_out (c : Dev nD) (t : Fin cfg0.N) (y : S256x2048.Idx) (i : S8192x2048.Idx)
    (h0 : (i 0).val = t.val * 256 + (y 0).val) (h1 : (i 1).val = (y 1).val) :
    k0_pay1 (F := Ideal) (iblk m c 0 t) (iblk m c 1 t) (iblk m c 2 t) (iblk m c 3 t) (iblk m c 4 t) y = outArr m c i := by
  refine (pay_rows (iblk m c 0 t) (iblk m c 1 t) (iblk m c 2 t) (iblk m c 3 t) (iblk m c 4 t) y).trans ?_
  unfold outArr
  have hc : y 1 = i 1 := Fin.ext h1.symm
  refine congr (congr (congr (congr (congrArg outEntry ?_) ?_) ?_) ?_) ?_
  · funext k; exact xblk_read m c t (ix2 (y 0) k) (ix2 (i 0) k) h0 rfl
  · funext k; exact scaleblk_read m c t (ix2 (0 : Fin 1) k)
  · funext k; exact shiftblk_read m c t (ix2 (0 : Fin 1) k)
  · funext k; rw [hc]; exact wblk_read m c t (ix2 k (i 1))
  · rw [hc]; exact biasblk_read m c t (ix2 (0 : Fin 1) (i 1))

/-- WHAT POINT `t` WRITES BACK is block `t` of `outArr`. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz]
  simp only [View.ld_unit_zero (S := S256x2048) hz, View.ld_unit_zero (S := S1x2048) hz, View.ld_unit_zero (S := S2048x2048) hz]
  obtain ⟨-, -, -, -, -, -, -, -, -, -, e0, e1⟩ := idx_facts t
  funext y
  show k0_pay1 (F := Ideal) (iblk m c 0 t) (iblk m c 1 t) (iblk m c 2 t) (iblk m c 3 t) (iblk m c 4 t) y
    = outArr m c (((cfg0.win 5).blk t).view.emb y)
  refine body_out m c t y _ ?_ ?_
  · show win0_5.index t (0 : Fin 2) * 256 + 1 * (y 0).val = t.val * 256 + (y 0).val; rw [e0]; omega
  · show win0_5.index t (1 : Fin 2) * 2048 + 1 * (y 1).val = (y 1).val; rw [e1]; omega

/-- An index of the output array is in point `t`'s block iff each coordinate is in the block's range on its axis. -/
theorem mem_blk (t : Fin cfg0.N) (i : S8192x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v14).slice (win0_5.rect t)).set ↔ _
  rw [View.set_slice_whole, Rect.mem_set_unit]
  exact Iff.rfl

/-- Every index of the output array is in the block of the point its row falls in. -/
theorem cover (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 32 := N_0
  let t : Fin cfg0.N := ⟨(i 0).val / 256, by rw [hN]; omega⟩
  obtain ⟨-, -, -, -, -, -, -, -, -, -, e0, e1⟩ := idx_facts t
  have ht : t.val = (i 0).val / 256 := rfl
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 2048 ≤ (i 1).val ∧ (i 1).val < win0_5.index t (1 : Fin 2) * 2048 + 2048; rw [e1]; omega

/-- THE OUTPUT ARRAY after the region is `outArr`. -/
theorem final (c : Dev nD) : (dats m 0 c).arrAt 5 cfg0.N = outArr m c :=
  (dats m 0 c).arrAt_eq_of_cover 5 (outArr m c) (fun t _ => flushed_eq m c t) cover

/-- The result as the last host line leaves it: the output array reshaped to [4, 2048, 2048]. -/
theorem tail_read (c : Dev nD) :
    (Pipeline.afterTail₀ cfgs (dats m) 0 (V0 m) [hostOps1] c main_v15 : S4x2048x2048.Idx → EReal)
      = shapeCast S4x2048x2048 (outArr m c) shapeCasts_S8192x2048_S4x2048x2048 := by
  unfold Pipeline.afterTail₀
  show StableHlo.after hostOps1 _ (Proc.devRef .tc main_v15) = _
  after_results
  have hW : Pipeline.withArrays (cfgs 0).spec c (V0 m c) (fun w => (dats m 0 c).arrAt w (cfgs 0).N) (Proc.devRef .tc main_v14) = outArr m c :=
    (Pipeline.withArrays_arr spec0 launch0.win.arr_inj c _ _ 5).trans (final m c)
  rw [hW]
  rfl

/-- Reshaped, entry (i, j, o) of the output is the normalised row (i, j) of the data against row `o` of the quantised
    weights, plus bias `o`: the array `result` of the program's arguments. -/
theorem result_eq (c : Dev nD) :
    shapeCast S4x2048x2048 (outArr m c) shapeCasts_S8192x2048_S4x2048x2048
      = result (m ((c : Thread nD τ).loc main_arg0)) (Entry.quantised (m ((c : Thread nD τ).loc main_arg1)))
          (m ((c : Thread nD τ).loc main_arg2)) (m ((c : Thread nD τ).loc main_arg3)) (m ((c : Thread nD τ).loc main_arg4)) := by
  funext i
  obtain ⟨i0, i1, i2, rfl⟩ : ∃ (i0 : Fin 4) (i1 : Fin 2048) (i2 : Fin 2048), i = ix3 i0 i1 i2 := ⟨i 0, i 1, i 2, eq_ix3 i⟩
  have hr : i0.val * 2048 + i1.val < 8192 := by have := i0.isLt; have := i1.isLt; omega
  rw [shapeCast_apply (outArr m c) shapeCasts_S8192x2048_S4x2048x2048 (ix3 i0 i1 i2) (ix2 (⟨i0.val * 2048 + i1.val, hr⟩ : Fin 8192) i2)
    (by rw [Shape.rowMajor_val_two, Shape.rowMajor_val_three]; rfl)]
  unfold outArr result
  refine congr (congr (congr (congr (congrArg outEntry ?_) ?_) ?_) ?_) ?_
  · funext k; exact Entry.x_read m c _ k i0 i1 rfl
  · funext k
    show (V m c main_v10 : S1x2048.Idx → EReal) (ix2 (0 : Fin 1) k) = _
    rw [Entry.entry_scale]; exact Entry.row_read _ k
  · funext k
    show (V m c main_v11 : S1x2048.Idx → EReal) (ix2 (0 : Fin 1) k) = _
    rw [Entry.entry_shift]; exact Entry.row_read _ k
  · funext k; exact Entry.w_read m c k i2
  · show (V m c main_v12 : S1x2048.Idx → EReal) (ix2 (0 : Fin 1) i2) = _
    rw [Entry.entry_bias]; exact Entry.row_read _ i2

/-- THE RUN, READ: every weakly fair execution ends with the result array at `result` of the arguments, the arguments
    unchanged. -/
theorem run : θ_run defs (onTc (τ := τ) (main (F := Ideal))) ⟨m, fun _ => 0, ρ⟩ fun r => ∀ c : Dev nD,
      r.2.mem ((c.tc : Thread nD τ).loc main_v15)
        = result (m ((c.tc : Thread nD τ).loc main_arg0)) (Entry.quantised (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v15 (Pipeline.mem_restRefs_of main_v15 (by decide) (by decide))).trans ((tail_read m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference's result, read at an entry.

  The reference normalises every row (i, j) of the data over its last axis — mean, centred row, variance, inverse
  square root of variance plus ε, scale, shift — and contracts the normalised rows with the rows of the quantised
  weights, adding the bias.  Read one operation at a time, entry (i, j, o) is `outEntry` of row (i, j), the
  scale, the shift, row `o` of the quantised weights and bias `o`: the array `result`.  The host's sums start from
  the zero word, which is the extended real 0; its quotient and inverse square root are the extended reals' own.
-/
import proofs.«149425_j44135083934122_1_alg».proof.Proof.Gen.ReferenceIdeal.Run
import proofs.«149425_j44135083934122_1_alg».proof.Proof.Gen.ReferenceIdeal.Read
import proofs.«149425_j44135083934122_1_alg».proof.Proof.LnSpec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.LnLinear

variable (a : (⟨S4x2048x2048, .f32⟩ : BufTy).Contents (Elt Ideal))

/-- The mean the reference divides out of row (i, j). -/
theorem mean_read (i : Fin 4) (j : Fin 2048) (z : Fin 1) :
    val_main_v3 (F := Ideal) a (ix3 i j z) = mean (fun k => a (ix3 i j k)) := by
  rw [val_main_v3_apply, val_main_v1_apply, val_main_v0_apply, val_main_v2_apply, val_main_cst_0_apply, val_main_cst_apply]
  unfold mean
  simp only [Ideal.hostDivf_def, Ideal.ofBits_def, Ideal.ofBits_zero_f32, zero_add]
  refine congrArg (Ideal.div · width) (Finset.sum_congr rfl fun k _ => congrArg a ?_)
  funext ax
  match ax with
  | ⟨0, _⟩ => rfl
  | ⟨1, _⟩ => rfl
  | ⟨2, _⟩ => rfl

/-- The centred entry the reference squares for the variance. -/
theorem centredSq_read (i : Fin 4) (j : Fin 2048) (k : Fin 2048) :
    val_main_v5 (F := Ideal) a (ix3 i j k) = centred (fun k => a (ix3 i j k)) k := by
  have e : idx_main_v4 (ix3 i j k) = ix3 i j (0 : Fin 1) := funext fun ax => by
    match ax with
    | ⟨0, _⟩ => rfl
    | ⟨1, _⟩ => rfl
    | ⟨2, _⟩ => rfl
  rw [val_main_v5_apply, val_main_v4_apply, e, mean_read]
  rfl

/-- The centred entry the reference scales. -/
theorem centred_read (i : Fin 4) (j : Fin 2048) (k : Fin 2048) :
    val_main_v12 (F := Ideal) a (ix3 i j k) = centred (fun k => a (ix3 i j k)) k := by
  have e : idx_main_v11 (ix3 i j k) = ix3 i j (0 : Fin 1) := funext fun ax => by
    match ax with
    | ⟨0, _⟩ => rfl
    | ⟨1, _⟩ => rfl
    | ⟨2, _⟩ => rfl
  rw [val_main_v12_apply, val_main_v11_apply, e, mean_read]
  rfl

/-- The variance of row (i, j). -/
theorem variance_read (i : Fin 4) (j : Fin 2048) (z : Fin 1) :
    val_main_v10 (F := Ideal) a (ix3 i j z) = variance (fun k => a (ix3 i j k)) := by
  rw [val_main_v10_apply, val_main_v8_apply, val_main_v7_apply, val_main_v9_apply, val_main_cst_2_apply, val_main_cst_1_apply]
  unfold variance
  simp only [Ideal.hostDivf_def, Ideal.ofBits_def, Ideal.ofBits_zero_f32, zero_add]
  refine congrArg (Ideal.div · width) (Finset.sum_congr rfl fun k _ => ?_)
  have e : idx_main_v7 (idx_main_v8 (ix3 i j z)) k = ix3 i j k := funext fun ax => by
    match ax with
    | ⟨0, _⟩ => rfl
    | ⟨1, _⟩ => rfl
    | ⟨2, _⟩ => rfl
  rw [e, val_main_v6_apply, centredSq_read]
  rfl

/-- The normalised, scaled and shifted entry (i, j, k). -/
theorem normed_read (g b : (⟨S2048, .f32⟩ : BufTy).Contents (Elt Ideal)) (i : Fin 4) (j : Fin 2048) (k : Fin 2048) :
    val_main_v23 (F := Ideal) a g b (ix3 i j k)
      = normed (fun k => a (ix3 i j k)) (fun k => g (ix1 k)) (fun k => b (ix1 k)) k := by
  have e16 : idx_main_v16 (ix3 i j k) = ix3 i j (0 : Fin 1) := funext fun ax => by
    match ax with
    | ⟨0, _⟩ => rfl
    | ⟨1, _⟩ => rfl
    | ⟨2, _⟩ => rfl
  have eg : idx_main_v18 (idx_main_v19 (ix3 i j k)) = ix1 k := funext fun ax => by
    match ax with
    | ⟨0, _⟩ => rfl
  have eb : idx_main_v21 (idx_main_v22 (ix3 i j k)) = ix1 k := funext fun ax => by
    match ax with
    | ⟨0, _⟩ => rfl
  rw [val_main_v23_apply, val_main_v20_apply, val_main_v17_apply, val_main_v16_apply, e16, val_main_v15_apply, val_main_v14_apply,
    val_main_v13_apply, val_main_cst_3_apply, val_main_v19_apply, val_main_v18_apply, eg, val_main_v22_apply, val_main_v21_apply, eb,
    centred_read, variance_read]
  rfl

/-- The reference's result is `result` of its arguments, with the quantised weights its own stage `val_main_v31`. -/
theorem result_read (w : (⟨S2048x2048, .f32⟩ : BufTy).Contents (Elt Ideal)) (bias g b : (⟨S2048, .f32⟩ : BufTy).Contents (Elt Ideal)) :
    val_main_v35 (F := Ideal) a w bias g b = result a (val_main_v31 (F := Ideal) w) bias g b := by
  funext i
  obtain ⟨i0, i1, i2, rfl⟩ : ∃ (i0 : Fin 4) (i1 : Fin 2048) (i2 : Fin 2048), i = ix3 i0 i1 i2 := ⟨i 0, i 1, i 2, eq_ix3 i⟩
  have e1 : idx_main_v33 (idx_main_v34 (ix3 i0 i1 i2)) = ix1 i2 := funext fun ax => by
    match ax with
    | ⟨0, _⟩ => rfl
  rw [val_main_v35_apply, val_main_v32_apply, val_main_v34_apply, val_main_v33_apply, e1]
  show _ = (∑ k, normed (fun k => a (ix3 i0 i1 k)) (fun k => g (ix1 k)) (fun k => b (ix1 k)) k * val_main_v31 (F := Ideal) w (ix2 i2 k)) + bias (ix1 i2)
  refine congrArg (· + bias (ix1 i2)) (Finset.sum_congr rfl fun k _ => ?_)
  have el : lidx_main_v32 (ix3 i0 i1 i2) k = ix3 i0 i1 k := funext fun ax => by
    match ax with
    | ⟨0, _⟩ => rfl
    | ⟨1, _⟩ => rfl
    | ⟨2, _⟩ => rfl
  have er : ridx_main_v32 (ix3 i0 i1 i2) k = ix2 i2 k := funext fun ax => by
    match ax with
    | ⟨0, _⟩ => rfl
    | ⟨1, _⟩ => rfl
  rw [el, er, normed_read]

end Cert.ReferenceIdeal.RefValue

end
-- ==== Proof.lean ====
/-
  LayerNorm fused into a matmul with ternary-quantised weights, against the plain jnp reference.

  Both programs compute, for every row (i, j) of the data x [4, 2048, 2048] and every output feature o,
      out (i, j, o) = Σₖ n (i, j, k) · q (o, k) + bias o,
  where n is the layer-normalised row — (x − μ) · (σ² + ε)^(-1/2) · γ + β with μ and σ² the row's mean and the mean
  of its centred squares — and q is the weight matrix divided by its mean absolute value plus ε, rounded to the
  nearest integer and clamped to [-1, 1].  The kernel reshapes x to 8192 rows, quantises and transposes the weights
  on the host, and then, 256 rows at a time, normalises the rows and multiplies them by the transposed matrix,
  adding the bias; the reference normalises the whole array, quantises the weights with the same host operations
  and contracts with one dot product.  Over the extended reals the changes of float format are the identity, the
  two sums over k have the same terms in the same order, and the kernel's row r = 2048 i + j is the reference's row
  (i, j): the two results are one function, `Cert.LnLinear.result`, of the arguments.  No step needs the inputs finite.

  The kernel side reads that function off the frame run of the region (`KernelValue`: what a grid point writes back
  is a block of one array, the 32 blocks cover it, the last host line reshapes it), over the body's stored value at
  an entry (`BodyValue`) and the operands as the region finds them (`Entry`).  The reference side reads its run one
  operation at a time (`RefValue`).  The quantised weights are the same host term in both programs.
-/
import proofs.«149425_j44135083934122_1_alg».proof.Defs
import proofs.«149425_j44135083934122_1_alg».proof.Proof.Gen.Kernel
import proofs.«149425_j44135083934122_1_alg».proof.Proof.Gen.Kernel.Skeleton
import proofs.«149425_j44135083934122_1_alg».proof.Proof.Gen.Kernel.Launch
import proofs.«149425_j44135083934122_1_alg».proof.Proof.Gen.Kernel.Points
import proofs.«149425_j44135083934122_1_alg».proof.Proof.Gen.Kernel.Frame
import proofs.«149425_j44135083934122_1_alg».proof.Proof.Gen.KernelIdeal
import proofs.«149425_j44135083934122_1_alg».proof.Proof.Gen.KernelIdeal.Skeleton
import proofs.«149425_j44135083934122_1_alg».proof.Proof.Gen.KernelIdeal.Launch
import proofs.«149425_j44135083934122_1_alg».proof.Proof.Gen.KernelIdeal.Points
import proofs.«149425_j44135083934122_1_alg».proof.Proof.Gen.KernelIdeal.Frame
import proofs.«149425_j44135083934122_1_alg».proof.Proof.Gen.ReferenceIdeal
import proofs.«149425_j44135083934122_1_alg».proof.Proof.Gen.ReferenceIdeal.Run
import proofs.«149425_j44135083934122_1_alg».proof.Proof.Gen.ReferenceIdeal.Read
import proofs.«149425_j44135083934122_1_alg».proof.Proof.Gen.Pre_finite_inputs
import proofs.«149425_j44135083934122_1_alg».proof.Proof.KernelValue
import proofs.«149425_j44135083934122_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The quantised weights are one term: the reference's stage is the kernel's host chain. -/
theorem quantised_eq (w : FVec Ideal Cert.ReferenceIdeal.S2048x2048 .f32) :
    Cert.ReferenceIdeal.Read.val_main_v31 (F := Ideal) w = Cert.KernelIdeal.Entry.quantised w := rfl

/-- Both programs end with the result array at `result` of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v35_eq (F := Ideal) _ _ _ _ _).trans
    (Cert.ReferenceIdeal.RefValue.result_read _ _ _ _ _)).trans ?_
  rw [(hagree c).1, (hagree c).2.1, (hagree c).2.2.1, (hagree c).2.2.2.1, (hagree c).2.2.2.2, quantised_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
